-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500x128 : Shape := ⟨2, ![500, 128]⟩
abbrev S1x1 : Shape := ⟨2, ![1, 1]⟩
abbrev S1000000 : Shape := ⟨1, ![1000000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500x128 : S_.BroadcastsInDim S500x128 (![] : Fin 0 → Fin S500x128.rank)
  reducesTo_S500x128_S_d0_1 : S500x128.ReducesTo [0, 1] S_
  bcast_S_S1x1 : S_.BroadcastsInDim S1x1 (![] : Fin 0 → Fin S1x1.rank)
  reducesTo_S1x1_S_d0_1 : S1x1.ReducesTo [0, 1] S_

variable [Facts]

def fn {F : FTy → Type} [FloatOps F] (main_arg0 : FVec F S100000x128 .f32) (main_arg1 : FVec F S500x128 .f32) (main_arg2 : FVec F S1x1 .f32) (main_arg3 : IVec S1000000 32) (main_arg4 : IVec S1000000 32) (main_arg5 : IVec S1000000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500x128 .f32 := Host.absf main_arg1
  let main_cst_0 : FVec F S_ .f32 := constant S_ .f32 0x7F800000#32
  let main_v5 : FVec F S500x128 .f32 := broadcastInDim S500x128 ![] bcast_S_S500x128 main_cst_0
  let main_v6 : IVec S500x128 1 := cmpf .olt main_v4 main_v5
  let main_c_1 : IVec S_ 1 := constantI S_ 1 1#1
  let main_v7 : IVec S_ 1 := (fun x v => Host.reduce IntOp.andi x v reducesTo_S500x128_S_d0_1 h_S_) main_v6 main_c_1
  let main_v8 : IVec S_ 1 := andi main_v3 main_v7
  let main_v9 : FVec F S1x1 .f32 := Host.absf main_arg2
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  main_v13
-- ==== Kernel.lean ====
abbrev S100000x128 : Shape := ⟨2, ![100000, 128]⟩
abbrev S500x128 : Shape := ⟨2, ![500, 128]⟩
abbrev S1x1 : Shape := ⟨2, ![1, 1]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1003520x128 : Shape := ⟨2, ![1003520, 128]⟩
abbrev S1003520 : Shape := ⟨1, ![1003520]⟩
abbrev S4096x128 : Shape := ⟨2, ![4096, 128]⟩
abbrev S4096 : Shape := ⟨1, ![4096]⟩

abbrev nBuf : Space → Nat
  | .hbm => 44
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S500x128, .f32⟩
  | .hbm, ⟨2, _⟩ => ⟨S1x1, .f32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x128, .f32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S1000000x1, .i32⟩
  | .hbm, ⟨23, _⟩ => ⟨S1000000x128, .f32⟩
  | .hbm, ⟨24, _⟩ => ⟨S_, .i32⟩
  | .hbm, ⟨25, _⟩ => ⟨S1000000, .i32⟩
  | .hbm, ⟨26, _⟩ => ⟨S1000000, .i1⟩
  | .hbm, ⟨27, _⟩ => ⟨S_, .i32⟩
  | .hbm, ⟨28, _⟩ => ⟨S1000000, .i32⟩
  | .hbm, ⟨29, _⟩ => ⟨S1000000, .i32⟩
  | .hbm, ⟨30, _⟩ => ⟨S1000000, .i32⟩
  | .hbm, ⟨31, _⟩ => ⟨S1000000x1, .i32⟩
  | .hbm, ⟨32, _⟩ => ⟨S1000000x128, .f32⟩
  | .hbm, ⟨33, _⟩ => ⟨S_, .i32⟩
  | .hbm, ⟨34, _⟩ => ⟨S_, .f32⟩
  | .hbm, ⟨35, _⟩ => ⟨S1003520x128, .f32⟩
  | .hbm, ⟨36, _⟩ => ⟨S_, .i32⟩
  | .hbm, ⟨37, _⟩ => ⟨S_, .f32⟩
  | .hbm, ⟨38, _⟩ => ⟨S1003520x128, .f32⟩
  | .hbm, ⟨39, _⟩ => ⟨S_, .i32⟩
  | .hbm, ⟨40, _⟩ => ⟨S_, .f32⟩
  | .hbm, ⟨41, _⟩ => ⟨S1003520x128, .f32⟩
  | .hbm, ⟨42, _⟩ => ⟨S1003520, .f32⟩
  | .hbm, ⟨43, _⟩ => ⟨S1000000, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x1, .f32⟩
  | .local _ .vmem, ⟨7, _⟩ => ⟨S4096, .f32⟩
  | .local _ .vmem, ⟨8, _⟩ => ⟨S4096, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_call0_v0 : Ref sig .tc := ⟨.hbm, 34, rfl⟩
abbrev main_v21 : Ref sig .tc := ⟨.hbm, 35, rfl⟩
abbrev main_c_6 : Ref sig .tc := ⟨.hbm, 36, rfl⟩
abbrev main_call1_v0 : Ref sig .tc := ⟨.hbm, 37, rfl⟩
abbrev main_v22 : Ref sig .tc := ⟨.hbm, 38, rfl⟩
abbrev main_c_7 : Ref sig .tc := ⟨.hbm, 39, rfl⟩
abbrev main_call2_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  pads_S1000000x128_S1003520x128_035200_000 : S1000000x128.Pads (![0, 0] : Fin 2 → Nat) ![3520, 0] ![0, 0] S1003520x128
  h_S_ : 0 < S_.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S4096_S4096_0 : ∀ a, (![0] : Fin 1 → Nat) a + S4096.size a ≤ S4096.size a
  h_S4096 : 0 < S4096.numel
  slices_S1003520_S1000000_0 : S1003520.Slices ![0] S1000000
  gather_S100000x128_S1000000x1_S1000000x128_1_0_n_n_0_1_1128_wf : GatherDims.WF S100000x128 S1000000x1 S1000000x128 [1] [0] [] [0] [] 1 ![1, 128]
  gather_S500x128_S1000000x1_S1000000x128_1_0_n_n_0_1_1128_wf : GatherDims.WF S500x128 S1000000x1 S1000000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1003520x128.size a
  hwx0_0 : ∀ i : grid0.Coords, EltTy.bits .f32 = 32 ∨ (Rect.block (s := S1003520x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S1003520x128.size a
  hwx0_1 : ∀ i : grid0.Coords, EltTy.bits .f32 = 32 ∨ (Rect.block (s := S1003520x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S1003520x128.size a
  hwx0_2 : ∀ i : grid0.Coords, EltTy.bits .f32 = 32 ∨ (Rect.block (s := S1003520x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S1003520.size a
  hwx0_4 : ∀ i : grid0.Coords, EltTy.bits .f32 = 32 ∨ (Rect.block (s := S1003520) S4096.size (cc0_transform_4 i) (hinb0_4 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S500x128_S1000000x1_S1000000x128_1_0_n_n_0_1_1128 : GatherDims S500x128 S1000000x1 S1000000x128 where
  offsetDims := [1]
  collapsedSliceDims := [0]
  operandBatchingDims := []
  startIndicesBatchingDims := []
  startIndexMap := [0]
  indexVectorDim := 1
  sliceSizes := ![1, 128]
  wf := gather_S500x128_S1000000x1_S1000000x128_1_0_n_n_0_1_1128_wf

abbrev win0_0 : Pipeline.Window sig grid0 :=
  Pipeline.Window.ofSpec (Memref.whole main_v21) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S500x128 : Shape := ⟨2, ![500, 128]⟩
abbrev S1x1 : Shape := ⟨2, ![1, 1]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩

abbrev nBuf : Space → Nat
  | .hbm => 54
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500x128, .f32⟩
  | .hbm, ⟨2, _⟩ => ⟨S1x1, .f32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S_, .i32⟩
  | .hbm, ⟨7, _⟩ => ⟨S1000000, .i32⟩
  | .hbm, ⟨8, _⟩ => ⟨S1000000, .i1⟩
  | .hbm, ⟨9, _⟩ => ⟨S_, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S1000000x1, .i32⟩
  | .hbm, ⟨14, _⟩ => ⟨S1000000x128, .f32⟩
  | .hbm, ⟨15, _⟩ => ⟨S_, .f32⟩
  | .hbm, ⟨16, _⟩ => ⟨S1000000x128, .f32⟩
  | .hbm, ⟨17, _⟩ => ⟨S1000000x128, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x128, .f32⟩
  | .hbm, ⟨27, _⟩ => ⟨S_, .f32⟩
  | .hbm, ⟨28, _⟩ => ⟨S1000000x128, .f32⟩
  | .hbm, ⟨29, _⟩ => ⟨S1000000x128, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x128, .f32⟩
  | .hbm, ⟨39, _⟩ => ⟨S_, .f32⟩
  | .hbm, ⟨40, _⟩ => ⟨S1000000x128, .f32⟩
  | .hbm, ⟨41, _⟩ => ⟨S1000000x128, .f32⟩
  | .hbm, ⟨42, _⟩ => ⟨S1000000x128, .f32⟩
  | .hbm, ⟨43, _⟩ => ⟨S1000000x128, .f32⟩
  | .hbm, ⟨44, _⟩ => ⟨S1000000x128, .f32⟩
  | .hbm, ⟨45, _⟩ => ⟨S1000000x128, .f32⟩
  | .hbm, ⟨46, _⟩ => ⟨S_, .f32⟩
  | .hbm, ⟨47, _⟩ => ⟨S1000000, .f32⟩
  | .hbm, ⟨48, _⟩ => ⟨S_, .f32⟩
  | .hbm, ⟨49, _⟩ => ⟨S1000000, .f32⟩
  | .hbm, ⟨50, _⟩ => ⟨S1000000, .f32⟩
  | .hbm, ⟨51, _⟩ => ⟨S_, .f32⟩
  | .hbm, ⟨52, _⟩ => ⟨S1000000, .f32⟩
  | .hbm, ⟨53, _⟩ => ⟨S1000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x128 : S_.BroadcastsInDim S1000000x128 (![] : Fin 0 → Fin S1000000x128.rank)
  reducesTo_S1000000x128_S1000000_d1 : S1000000x128.ReducesTo [1] S1000000
  h_S_ : 0 < S_.numel
  shapeCasts_S1x1_S_ : S1x1.ShapeCasts S_
  gather_S100000x128_S1000000x1_S1000000x128_1_0_n_n_0_1_1128_wf : GatherDims.WF S100000x128 S1000000x1 S1000000x128 [1] [0] [] [0] [] 1 ![1, 128]
  gather_S500x128_S1000000x1_S1000000x128_1_0_n_n_0_1_1128_wf : GatherDims.WF S500x128 S1000000x1 S1000000x128 [1] [0] [] [0] [] 1 ![1, 128]

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def gather_S500x128_S1000000x1_S1000000x128_1_0_n_n_0_1_1128 : GatherDims S500x128 S1000000x1 S1000000x128 where
  offsetDims := [1]
  collapsedSliceDims := [0]
  operandBatchingDims := []
  startIndicesBatchingDims := []
  startIndexMap := [0]
  indexVectorDim := 1
  sliceSizes := ![1, 128]
  wf := gather_S500x128_S1000000x1_S1000000x128_1_0_n_n_0_1_1128_wf

class Facts : Prop extends Facts₀ where

variable [Facts]
-- ==== Proof.Score.lean ====
/-
  The pRotatE edge score on the extended reals, as one function of three embedding rows and the modulus.

  For one edge, with head, relation and tail rows h, r, t of 128 lanes each, a phase scale s (the f32 word
  of pi / 0.109375, the same word in both programs, so it is never evaluated) and the margin 12:

      score = (12 - sum over the 128 lanes d of |sin (h d * s + r d * s - t d * s)|) * modulus.

  The absolute value is max x (-x), which is what both a kernel's and a host's abs denote on the extended
  reals, and sin is the total extension both sides share. Nothing here uses a law that fails at an infinity:
  the two programs apply the same operations in the same order, lane by lane, so no precondition is opened.
-/
import Idealize.ShloMosaic.PureOps.Ideal
import Idealize.ShloMosaic.PureOps.Ideal.Laws
import Idealize.ShloMosaic.Lib.ValueIdx

noncomputable section

namespace Cert.Score

open Idealize.ShloMosaic Idealize.ShloMosaic.ValueIdx

/-- The phase scale pi / 0.109375 as both programs carry it: one f32 word. -/
abbrev phaseScale : EReal := Ideal.ofBits .f32 0x41E5C8FA#32

/-- The margin, 12. -/
abbrev margin : EReal := Ideal.ofBits .f32 0x41400000#32

/-- The phase difference of one lane: head plus relation minus tail, each scaled. -/
def phase (h r t : EReal) : EReal := h * phaseScale + r * phaseScale - t * phaseScale

/-- One lane's contribution: the absolute value of the sine of the phase difference. -/
def lane (h r t : EReal) : EReal := max (Ideal.sin (phase h r t)) (-Ideal.sin (phase h r t))

/-- One edge's score from its three rows and the modulus. -/
def rowScore (h t r : Fin 128 → EReal) (md : EReal) : EReal :=
  (margin - ∑ d : Fin 128, lane (h d) (r d) (t d)) * md

/-- The score of every row of three row-aligned matrices of `n` rows: entry `i` is the score of row `i`. -/
def scoreRows {n : Nat} (H T R : (⟨2, ![n, 128]⟩ : Shape).Idx → EReal) (md : EReal) :
    (⟨1, ![n]⟩ : Shape).Idx → EReal :=
  fun i => rowScore (fun d => H (ix2 (i 0) d)) (fun d => T (ix2 (i 0) d)) (fun d => R (ix2 (i 0) d)) md

/-- The score of row `p`, with the row a literal coordinate. -/
theorem scoreRows_ix1 {n : Nat} (H T R : (⟨2, ![n, 128]⟩ : Shape).Idx → EReal) (md : EReal) (p : Fin n) :
    scoreRows H T R md (ix1 p)
      = rowScore (fun d => H (ix2 p d)) (fun d => T (ix2 p d)) (fun d => R (ix2 p d)) md := rfl

/-- Two edges whose rows agree lane by lane have the same score. -/
theorem rowScore_congr {h t r h' t' r' : Fin 128 → EReal} {md md' : EReal}
    (eh : ∀ d, h d = h' d) (et : ∀ d, t d = t' d) (er : ∀ d, r d = r' d) (em : md = md') :
    rowScore h t r md = rowScore h' t' r' md' := by
  rw [funext eh, funext et, funext er, em]

end Cert.Score

end
-- ==== Proof.KernelBlock.lean ====
/-
  What the kernel body stores, read at one row of its block.

  The body loads three [4096,128] blocks (head, tail, relation rows of 4096 edges) and the [1,1] modulus, and
  stores a [4096] vector. Entry p of that vector depends on row p of each block only: every lane d contributes
  |sin (head p d * s + rel p d * s - tail p d * s)|, the lane reduction over the 128 lanes is their sum (into
  a zero accumulator, so the sum itself), the margin minus that sum is scaled by the modulus. That is the edge
  score of the three rows. The identity shape casts on the loaded blocks drop out.
-/
import proofs.«133718_j76124000354701_1_alg».proof.Proof.Gen.KernelIdeal.Skeleton
import proofs.«133718_j76124000354701_1_alg».proof.Proof.Score
import Idealize.ShloMosaic.Lib.Pipeline.Value
import Idealize.ShloMosaic.Lib.ValueIdx
import Idealize.ShloMosaic.PureOps.Ideal.Laws

noncomputable section

namespace Cert.KernelIdeal.Block

open Idealize.ShloMosaic Idealize.ShloMosaic.ValueIdx Cert.KernelIdeal Cert.KernelIdeal.Gen Cert.Score

/-- One entry of the body's [4096,128] vector before the lane reduction: the lane term of the three loaded
    blocks at that entry. -/
theorem lanes_apply (x0 x1 x2 : Vec Ideal S4096x128 .f32) (i : S4096x128.Idx) :
    absf (F := Ideal) (sin (F := Ideal) (subf (F := Ideal)
        (addf (F := Ideal) (mulf (F := Ideal) (shapeCast S4096x128 x0 shapeCasts_S4096x128_S4096x128) (broadcast S4096x128 (FloatOps.ofBits .f32 0x41E5C8FA#32)))
          (mulf (F := Ideal) (shapeCast S4096x128 x2 shapeCasts_S4096x128_S4096x128) (broadcast S4096x128 (FloatOps.ofBits .f32 0x41E5C8FA#32))))
        (mulf (F := Ideal) (shapeCast S4096x128 x1 shapeCasts_S4096x128_S4096x128) (broadcast S4096x128 (FloatOps.ofBits .f32 0x41E5C8FA#32))))) i
      = lane (x0 i) (x2 i) (x1 i) := by
  rw [shapeCast_self, shapeCast_self, shapeCast_self]
  rfl

/-- The index the lane reduction reads for output row `p` and lane `d` is entry (p, d) of the block. -/
theorem lift_row (p : Fin 4096) (d : Fin 128) :
    (reduces_S4096x128_S4096).lift (ix1 p) d = ix2 p d :=
  funext fun a => Fin.ext (by match a with | ⟨0, _⟩ => rfl | ⟨1, _⟩ => rfl)

/-- The position the body extracts the modulus from is entry (0, 0). -/
theorem modulus_pos : (fun a : Fin S1x1.rank => (⟨![0, 0] a, inpos_S1x1_p0_0 a⟩ : Fin (S1x1.size a))) = ix2 (0 : Fin 1) (0 : Fin 1) :=
  funext fun a => Fin.ext (by match a with | ⟨0, _⟩ => rfl | ⟨1, _⟩ => rfl)

/-- THE PAYLOAD AT A ROW: entry `p` of what the body stores is the edge score of row `p` of the head, tail and
    relation blocks, with the modulus block's one entry. -/
theorem pay_apply (x0 x1 x2 : Vec Ideal S4096x128 .f32) (x3 : Vec Ideal S1x1 .f32) (p : Fin 4096) :
    k0_pay1 (F := Ideal) x0 x1 x2 x3 (ix1 p)
      = rowScore (fun d => x0 (ix2 p d)) (fun d => x1 (ix2 p d)) (fun d => x2 (ix2 p d)) (x3 (ix2 0 0)) := by
  unfold k0_pay1 rowScore
  refine congrArg₂ (· * ·) (congrArg (margin - ·) ?_) ?_
  · refine (Ideal.multiReduction_add_single _ 0x00000000#32 reduces_S4096x128_S4096 _ _ (ix1 p)).trans ?_
    refine Finset.sum_congr rfl fun d _ => ?_
    refine (lanes_apply x0 x1 x2 _).trans ?_
    rw [lift_row p d]
  · exact congrArg x3 modulus_pos

end Cert.KernelIdeal.Block

end
-- ==== Proof.KernelArray.lean ====
/-
  From blocks to the array: what the kernel's output array holds after the region.

  The region runs 245 points. Point t fetches rows 4096 t .. 4096 t + 4095 of the three padded matrices
  (head, tail, relation: [1003520,128] each), the whole [1,1] modulus, and writes back entries
  4096 t .. 4096 t + 4095 of the [1003520] output. The input blocks sit on the same block row as the output
  block, so entry p of what point t writes is the edge score of padded row 4096 t + p; the 245 output blocks
  tile the array, so after the region the output array is the score of every padded row.
-/
import proofs.«133718_j76124000354701_1_alg».proof.Proof.Gen.KernelIdeal.Frame
import proofs.«133718_j76124000354701_1_alg».proof.Proof.KernelBlock
import Idealize.ShloMosaic.Lib.Pipeline.Value
import Idealize.ShloMosaic.Lib.ValueIdx
import Idealize.ShloMosaic.Lib.Tactic

set_option maxRecDepth 16384

noncomputable section

namespace Cert.KernelIdeal.Scores

open Idealize.ShloMosaic Idealize.ShloMosaic.TcCoe Idealize.SL.Sem Idealize.ShloMosaic.ValueIdx
open Idealize.ShloMosaic.Pipeline (Dat)
open Cert.KernelIdeal Cert.KernelIdeal.Gen Cert.Score

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- The padded head, tail and relation matrices and the modulus array, as the region finds them. -/
abbrev headP (c : Dev nD) : S1003520x128.Idx → EReal := V m c main_v21
abbrev tailP (c : Dev nD) : S1003520x128.Idx → EReal := V m c main_v22
abbrev relP (c : Dev nD) : S1003520x128.Idx → EReal := V m c main_v23
abbrev modA (c : Dev nD) : S1x1.Idx → EReal := V m c main_arg2

/-- The score of every padded row: what the output array ends holding. -/
abbrev paddedScores (c : Dev nD) : S1003520.Idx → EReal :=
  scoreRows (headP m c) (tailP m c) (relP m c) (modA m c (ix2 0 0))

/-- The printed index maps, decided over the 245 points: the three matrix windows sit on the output's block row
    and on block column 0, the modulus window on its one block, and the output's block row is at most 244. -/
theorem index_facts : ∀ t : Fin cfg0.N,
    win0_0.index t (0 : Fin 2) = win0_4.index t (0 : Fin 1) ∧ win0_0.index t (1 : Fin 2) = 0
    ∧ win0_1.index t (0 : Fin 2) = win0_4.index t (0 : Fin 1) ∧ win0_1.index t (1 : Fin 2) = 0
    ∧ win0_2.index t (0 : Fin 2) = win0_4.index t (0 : Fin 1) ∧ win0_2.index t (1 : Fin 2) = 0
    ∧ win0_3.index t (0 : Fin 2) = 0 ∧ win0_3.index t (1 : Fin 2) = 0
    ∧ win0_4.index t (0 : Fin 1) ≤ 244 :=
  (by decide +kernel : ∀ t : Fin grid0.N, _)

/-- Every output block row is some point's. -/
theorem index_onto : ∀ q : Fin 245, ∃ t : Fin cfg0.N, win0_4.index t (0 : Fin 1) = q.val :=
  (by decide +kernel : ∀ q : Fin 245, ∃ t : Fin grid0.N, win0_4.index t (0 : Fin 1) = q.val)

/-- Entry (p, d) of the head block at point `t` is entry (4096 * block row + p, d) of the padded head matrix. -/
theorem head_block (c : Dev nD) (t : Fin cfg0.N) (p : Fin 4096) (d : Fin 128) (k : S1003520x128.Idx)
    (hk0 : (k 0).val = win0_4.index t (0 : Fin 1) * 4096 + p.val) (hk1 : (k 1).val = d.val) :
    (iblk m c 0 t : Vec Ideal S4096x128 .f32) (ix2 p d) = headP m c k := by
  obtain ⟨e0, e1, -⟩ := index_facts t
  unfold iblk
  rw [View.read_apply]
  show V m c main_v21 _ = V m c main_v21 _
  congr 1
  funext a
  apply Fin.ext
  match a with
  | ⟨0, _⟩ => show win0_0.index t (0 : Fin 2) * 4096 + 1 * p.val = (k 0).val; omega
  | ⟨1, _⟩ => show win0_0.index t (1 : Fin 2) * 128 + 1 * d.val = (k 1).val; omega

/-- The same for the tail block. -/
theorem tail_block (c : Dev nD) (t : Fin cfg0.N) (p : Fin 4096) (d : Fin 128) (k : S1003520x128.Idx)
    (hk0 : (k 0).val = win0_4.index t (0 : Fin 1) * 4096 + p.val) (hk1 : (k 1).val = d.val) :
    (iblk m c 1 t : Vec Ideal S4096x128 .f32) (ix2 p d) = tailP m c k := by
  obtain ⟨-, -, e0, e1, -⟩ := index_facts t
  unfold iblk
  rw [View.read_apply]
  show V m c main_v22 _ = V m c main_v22 _
  congr 1
  funext a
  apply Fin.ext
  match a with
  | ⟨0, _⟩ => show win0_1.index t (0 : Fin 2) * 4096 + 1 * p.val = (k 0).val; omega
  | ⟨1, _⟩ => show win0_1.index t (1 : Fin 2) * 128 + 1 * d.val = (k 1).val; omega

/-- The same for the relation block. -/
theorem rel_block (c : Dev nD) (t : Fin cfg0.N) (p : Fin 4096) (d : Fin 128) (k : S1003520x128.Idx)
    (hk0 : (k 0).val = win0_4.index t (0 : Fin 1) * 4096 + p.val) (hk1 : (k 1).val = d.val) :
    (iblk m c 2 t : Vec Ideal S4096x128 .f32) (ix2 p d) = relP m c k := by
  obtain ⟨-, -, -, -, e0, e1, -⟩ := index_facts t
  unfold iblk
  rw [View.read_apply]
  show V m c main_v23 _ = V m c main_v23 _
  congr 1
  funext a
  apply Fin.ext
  match a with
  | ⟨0, _⟩ => show win0_2.index t (0 : Fin 2) * 4096 + 1 * p.val = (k 0).val; omega
  | ⟨1, _⟩ => show win0_2.index t (1 : Fin 2) * 128 + 1 * d.val = (k 1).val; omega

/-- The modulus block at every point is the modulus array. -/
theorem mod_block (c : Dev nD) (t : Fin cfg0.N) :
    (iblk m c 3 t : Vec Ideal S1x1 .f32) (ix2 0 0) = modA m c (ix2 0 0) := by
  obtain ⟨-, -, -, -, -, -, e0, e1, -⟩ := index_facts t
  unfold iblk
  rw [View.read_apply]
  show V m c main_arg2 _ = V m c main_arg2 _
  congr 1
  funext a
  apply Fin.ext
  match a with
  | ⟨0, _⟩ => show win0_3.index t (0 : Fin 2) * 1 + 1 * 0 = 0; omega
  | ⟨1, _⟩ => show win0_3.index t (1 : Fin 2) * 1 + 1 * 0 = 0; omega

/-- WHAT POINT `t` WRITES BACK is block `t` of the scores of the padded rows. -/
theorem flushed_eq (c : Dev nD) (t : Fin cfg0.N) :
    (dats m 0 c).flushed 4 t = ((cfg0.win 4).blk t).view.read (Elt Ideal) (paddedScores m c) := by
  show (cfg0.win 4).cut (grid0.coords t) ((dats m 0 c).after 4 t) = _
  rw [after0_4]
  unfold out0_4
  rw [View.canon_unit_zero zeros1]
  simp only [View.ld_unit_zero (S := S4096x128) zeros2, View.ld_unit_zero (S := S1x1) zeros2]
  funext j
  obtain ⟨p, rfl⟩ : ∃ p : Fin 4096, j = ix1 p := ⟨j 0, eq_ix1 j⟩
  show k0_pay1 (F := Ideal) (iblk m c 0 t) (iblk m c 1 t) (iblk m c 2 t) (iblk m c 3 t) (ix1 p)
    = paddedScores m c (((cfg0.win 4).blk t).view.emb (ix1 p))
  refine (Block.pay_apply (iblk m c 0 t) (iblk m c 1 t) (iblk m c 2 t) (iblk m c 3 t) p).trans ?_
  have hrow : ((((cfg0.win 4).blk t).view.emb (ix1 p)) 0).val = win0_4.index t (0 : Fin 1) * 4096 + p.val := by
    show win0_4.index t (0 : Fin 1) * 4096 + 1 * p.val = _; omega
  show rowScore _ _ _ _ = rowScore _ _ _ _
  exact rowScore_congr (fun d => head_block m c t p d _ hrow rfl) (fun d => tail_block m c t p d _ hrow rfl)
    (fun d => rel_block m c t p d _ hrow rfl) (mod_block m c t)

/-- An entry of the output array is in point `t`'s block iff it lies in that block's 4096 entries. -/
theorem mem_block (t : Fin cfg0.N) (i : S1003520.Idx) :
    i ∈ ((cfg0.win 4).blk t).view.set ↔ ∀ a : Fin 1, win0_4.index t a * S4096.size a ≤ (i a).val ∧ (i a).val < win0_4.index t a * S4096.size a + S4096.size a := by
  show i ∈ ((View.whole main_v24).slice (win0_4.rect t)).set ↔ _
  rw [View.set_slice_whole, Rect.mem_set_unit]
  exact Iff.rfl

/-- THE COVER: entry r of the output array is written back by the point on block row r / 4096. -/
theorem covered (i : S1003520.Idx) :
    ∃ t : Fin cfg0.N, (cfg0.win 4).flush t = true ∧ i ∈ ((cfg0.win 4).blk t).view.set := by
  have hi : (i 0).val < 1003520 := (i 0).isLt
  obtain ⟨t, ht⟩ := index_onto ⟨(i 0).val / 4096, by omega⟩
  have hq : win0_4.index t (0 : Fin 1) = (i 0).val / 4096 := ht
  refine ⟨t, flush0_4 t, ?_⟩
  rw [mem_block]
  intro a
  match a with
  | ⟨0, _⟩ => show win0_4.index t (0 : Fin 1) * 4096 ≤ (i 0).val ∧ (i 0).val < win0_4.index t (0 : Fin 1) * 4096 + 4096; omega

/-- THE OUTPUT ARRAY after the region: the score of every padded row. -/
theorem final (c : Dev nD) : (dats m 0 c).arrAt 4 cfg0.N = paddedScores m c :=
  (dats m 0 c).arrAt_eq_of_cover 4 (paddedScores m c) (fun t _ => flushed_eq m c t) covered

end Cert.KernelIdeal.Scores

end
-- ==== Proof.KernelResult.lean ====
/-
  The kernel's result: the score of every edge.

  Before the region the host gathers the head, tail and relation rows of every edge (a negative index first
  moved up by the table's row count) into three [1000000,128] matrices and pads each with 3520 rows of zeros
  at the end; after the region it keeps the first 1000000 entries of the [1003520] output. A padded matrix
  read at a row below 1000000 is the gathered matrix there, so entry p of the result, p < 1000000, is the
  edge score of row p of the three gathered matrices: the padding rows only feed the entries the slice drops.
-/
import proofs.«133718_j76124000354701_1_alg».proof.Proof.KernelArray
import Idealize.ShloMosaic.Lib.KernelVsHost
import Idealize.ShloMosaic.Lib.StableHlo.Run

set_option maxRecDepth 16384

noncomputable section

namespace Cert.KernelIdeal.Scores

open Idealize.ShloMosaic Idealize.ShloMosaic.TcCoe Idealize.SL.Sem Idealize.ShloMosaic.ValueIdx
open Idealize.ShloMosaic.Pipeline (Dat)
open Cert.KernelIdeal Cert.KernelIdeal.Gen Cert.Score

variable (m : (ℓ : Loc nD τ sig) → Buf (Elt Ideal) ℓ) (ρ : Dev nD → PrngReg)

/-- The index column a gather reads: each index, moved up by `n` when negative, as a [1000000,1] column. -/
def indexColumn (n : BitVec 32) (idx : (⟨S1000000, .i32⟩ : BufTy).Contents (Elt Ideal)) :
    (⟨S1000000x1, .i32⟩ : BufTy).Contents (Elt Ideal) :=
  broadcastInDim S1000000x1 ![0] bcast_S1000000_S1000000x1_0
    (select (cmpi .slt idx (broadcastInDim S1000000 ![] bcast_S_S1000000 (constantI S_ 32 0#32)))
      (addi idx (broadcastInDim S1000000 ![] bcast_S_S1000000 (constantI S_ 32 n))) idx)

/-- The gathered head, tail and relation rows of every edge. -/
def gatheredHead (c : Dev nD) : S1000000x128.Idx → EReal :=
  Host.gather gather_S100000x128_S1000000x1_S1000000x128_1_0_n_n_0_1_1128 (m ((c : Thread nD τ).loc main_arg0))
    (indexColumn 100000#32 (m ((c : Thread nD τ).loc main_arg3)))
def gatheredTail (c : Dev nD) : S1000000x128.Idx → EReal :=
  Host.gather gather_S100000x128_S1000000x1_S1000000x128_1_0_n_n_0_1_1128 (m ((c : Thread nD τ).loc main_arg0))
    (indexColumn 100000#32 (m ((c : Thread nD τ).loc main_arg4)))
def gatheredRel (c : Dev nD) : S1000000x128.Idx → EReal :=
  Host.gather gather_S500x128_S1000000x1_S1000000x128_1_0_n_n_0_1_1128 (m ((c : Thread nD τ).loc main_arg1))
    (indexColumn 500#32 (m ((c : Thread nD τ).loc main_arg5)))

/-- The value the pads fill with: the integer zero converted. -/
abbrev fill : S_.Idx → EReal := sitofp (F := Ideal) .f32 (constantI S_ 32 0#32)

set_option maxHeartbeats 1000000 in
/-- The region finds each padded matrix at the pad of the gathered one: the host operations before the region,
    read back one after the other (thirty-six of them for the last matrix, hence the larger step budget). -/
theorem headP_eq (c : Dev nD) :
    headP m c = pad S1003520x128 ![0, 0] ![3520, 0] ![0, 0] (gatheredHead m c) fill pads_S1000000x128_S1003520x128_035200_000 h_S_ := by
  dsimp only [headP, Gen.V, Gen.V0]
  simp only [hostOps0, hostOps0_1, hostOps0_2, hostOps0_3, hostOps0_4, hostOps0_5, List.flatten_cons, List.flatten_nil,
    List.append_nil, List.cons_append, List.nil_append]
  after_results
  rfl
set_option maxHeartbeats 1000000 in
theorem tailP_eq (c : Dev nD) :
    tailP m c = pad S1003520x128 ![0, 0] ![3520, 0] ![0, 0] (gatheredTail m c) fill pads_S1000000x128_S1003520x128_035200_000 h_S_ := by
  dsimp only [tailP, Gen.V, Gen.V0]
  simp only [hostOps0, hostOps0_1, hostOps0_2, hostOps0_3, hostOps0_4, hostOps0_5, List.flatten_cons, List.flatten_nil,
    List.append_nil, List.cons_append, List.nil_append]
  after_results
  rfl
set_option maxHeartbeats 1000000 in
theorem relP_eq (c : Dev nD) :
    relP m c = pad S1003520x128 ![0, 0] ![3520, 0] ![0, 0] (gatheredRel m c) fill pads_S1000000x128_S1003520x128_035200_000 h_S_ := by
  dsimp only [relP, Gen.V, Gen.V0]
  simp only [hostOps0, hostOps0_1, hostOps0_2, hostOps0_3, hostOps0_4, hostOps0_5, List.flatten_cons, List.flatten_nil,
    List.append_nil, List.cons_append, List.nil_append]
  after_results
  rfl

/-- A matrix padded with 3520 rows at the end, read at a row below 1000000, is the matrix there. -/
theorem pad_row (X : S1000000x128.Idx → EReal) (v : S_.Idx → EReal) (p : Fin 1000000) (d : Fin 128) (k : S1003520x128.Idx)
    (hk0 : (k 0).val = p.val) (hk1 : (k 1).val = d.val) :
    pad S1003520x128 ![0, 0] ![3520, 0] ![0, 0] X v pads_S1000000x128_S1003520x128_035200_000 h_S_ k = X (ix2 p d) :=
  pad_apply_of_inside ![0, 0] ![3520, 0] ![0, 0] X v pads_S1000000x128_S1003520x128_035200_000 h_S_ k (ix2 p d) (fun a => by
    match a with
    | ⟨0, _⟩ => show (k 0).val = 0 + p.val * (0 + 1); omega
    | ⟨1, _⟩ => show (k 1).val = 0 + d.val * (0 + 1); omega)

/-- The score of every edge: the result. -/
def edgeScores (c : Dev nD) : S1000000.Idx → EReal :=
  scoreRows (gatheredHead m c) (gatheredTail m c) (gatheredRel m c) (m ((c : Thread nD τ).loc main_arg2) (ix2 0 0))

/-- After the host's closing slice the result is the first 1000000 entries of the scores of the padded rows. -/
theorem result_slice (c : Dev nD) :
    Pipeline.afterTail₀ cfgs (dats m) 0 (V0 m) [hostOps1] c main_v25
      = extractStridedSlice S1000000 ![0] (paddedScores m c) slices_S1003520_S1000000_0 := by
  unfold Pipeline.afterTail₀
  show StableHlo.after hostOps1 _ (Proc.devRef .tc main_v25) = _
  after_results
  exact congrArg (fun X => extractStridedSlice S1000000 ![0] X slices_S1003520_S1000000_0)
    ((Pipeline.withArrays_arr spec0 launch0.win.arr_inj c (V0 m c) (fun w => (dats m 0 c).arrAt w cfg0.N) 4).trans (final m c))

/-- Below row 1000000 the score of a padded row is the score of the gathered row: the pads read inside. -/
theorem padded_row (c : Dev nD) (p : Fin 1000000) (hp : p.val < 1003520) :
    paddedScores m c (ix1 (⟨p.val, hp⟩ : Fin 1003520)) = edgeScores m c (ix1 p) := by
  show rowScore _ _ _ _ = rowScore _ _ _ _
  refine rowScore_congr (fun d => ?_) (fun d => ?_) (fun d => ?_) (congrFun (V_main_arg2 m c) (ix2 0 0))
  · show headP m c (ix2 (⟨p.val, hp⟩ : Fin 1003520) d) = gatheredHead m c (ix2 p d)
    exact (congrFun (headP_eq m c) (ix2 (⟨p.val, hp⟩ : Fin 1003520) d)).trans
      (pad_row (gatheredHead m c) fill p d (ix2 (⟨p.val, hp⟩ : Fin 1003520) d) rfl rfl)
  · show tailP m c (ix2 (⟨p.val, hp⟩ : Fin 1003520) d) = gatheredTail m c (ix2 p d)
    exact (congrFun (tailP_eq m c) (ix2 (⟨p.val, hp⟩ : Fin 1003520) d)).trans
      (pad_row (gatheredTail m c) fill p d (ix2 (⟨p.val, hp⟩ : Fin 1003520) d) rfl rfl)
  · show relP m c (ix2 (⟨p.val, hp⟩ : Fin 1003520) d) = gatheredRel m c (ix2 p d)
    exact (congrFun (relP_eq m c) (ix2 (⟨p.val, hp⟩ : Fin 1003520) d)).trans
      (pad_row (gatheredRel m c) fill p d (ix2 (⟨p.val, hp⟩ : Fin 1003520) d) rfl rfl)

/-- Entry p of the first 1000000 entries of a [1003520] vector is its entry p. -/
theorem slice_entry (X : S1003520.Idx → EReal) (p : Fin 1000000) (hp : p.val < 1003520) :
    extractStridedSlice S1000000 ![0] X slices_S1003520_S1000000_0 (ix1 p) = X (ix1 (⟨p.val, hp⟩ : Fin 1003520)) :=
  extractStridedSlice_apply (s := S1003520) (t := S1000000) ![0] X slices_S1003520_S1000000_0 (ix1 p) (ix1 (⟨p.val, hp⟩ : Fin 1003520))
    (fun a => by match a with | ⟨0, _⟩ => show p.val = 0 + p.val; omega)

/-- Entry p of the first 1000000 scores of the padded rows is the score of edge p. -/
theorem slice_at (c : Dev nD) (p : Fin 1000000) :
    extractStridedSlice S1000000 ![0] (paddedScores m c) slices_S1003520_S1000000_0 (ix1 p) = edgeScores m c (ix1 p) :=
  have hp : p.val < 1003520 := Nat.lt_trans p.isLt (by decide)
  (slice_entry (paddedScores m c) p hp).trans (padded_row m c p hp)

/-- So the first 1000000 scores of the padded rows are the scores of the edges. -/
theorem slice_scores (c : Dev nD) :
    extractStridedSlice S1000000 ![0] (paddedScores m c) slices_S1003520_S1000000_0 = edgeScores m c := by
  funext i
  obtain ⟨p, rfl⟩ : ∃ p : Fin 1000000, i = ix1 p := ⟨i 0, eq_ix1 i⟩
  exact slice_at m c p

/-- THE RESULT after the host's closing slice: the score of every edge. -/
theorem result_eq (c : Dev nD) :
    Pipeline.afterTail₀ cfgs (dats m) 0 (V0 m) [hostOps1] c main_v25 = edgeScores m c :=
  (result_slice m c).trans (slice_scores m c)

/-- THE RUN, READ: every weakly fair execution ends with the result at the score of every edge and the six
    argument arrays as launched. -/
theorem run : θ_run defs (onTc (τ := τ) (main (F := Ideal))) ⟨m, fun _ => 0, ρ⟩ fun r => ∀ c : Dev nD,
      r.2.mem ((c.tc : Thread nD τ).loc main_v25) = edgeScores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v25 (Pipeline.mem_restRefs_of main_v25 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Scores

end
-- ==== Proof.RefScore.lean ====
/-
  The reference's result, read at one edge, is the edge score of the three gathered rows.

  The reference gathers the head, tail and relation rows of every edge into three [1000000,128] matrices,
  scales each by s, forms head + relation - tail, takes |sin| lane by lane, sums the 128 lanes of a row from a
  zero initial value, subtracts from the margin and multiplies by the modulus, reshaped from [1,1] to a
  scalar. Read at edge p this is the edge score of row p of the three gathered matrices. The gathers are
  kept as named stages: the kernel applies the same gathers to the same index vectors, so they are never
  opened.
-/
import proofs.«133718_j76124000354701_1_alg».proof.Proof.Gen.ReferenceIdeal.Read
import proofs.«133718_j76124000354701_1_alg».proof.Proof.Score
import Idealize.ShloMosaic.Lib.Pipeline.Value
import Idealize.ShloMosaic.Lib.ValueIdx
import Idealize.ShloMosaic.PureOps.Ideal.Laws

noncomputable section

namespace Cert.ReferenceIdeal.RefScore

open Idealize.ShloMosaic Idealize.ShloMosaic.ValueIdx Cert.ReferenceIdeal Cert.ReferenceIdeal.Gen Cert.ReferenceIdeal.Read Cert.Score

/-- The [1,1] modulus reshaped to a scalar is its one entry. -/
theorem modulus_read (x2 : (⟨S1x1, .f32⟩ : BufTy).Contents (Elt Ideal)) (j : S_.Idx) :
    val_main_v34 (F := Ideal) x2 j = x2 (ix2 0 0) := by
  unfold val_main_v34
  refine shapeCast_apply x2 shapeCasts_S1x1_S_ j (ix2 0 0) ?_
  show (S1x1.rowMajor (ix2 0 0)).val = (S_.rowMajor j).val
  have n1 : S1x1.numel = 1 := by decide
  have n0 : S_.numel = 1 := by decide
  have h1 : (S1x1.rowMajor (ix2 0 0)).val < S1x1.numel := (S1x1.rowMajor (ix2 0 0)).isLt
  have h2 : (S_.rowMajor j).val < S_.numel := (S_.rowMajor j).isLt
  omega

/-- The entry the row sum reads for edge `p` and lane `d` is entry (p, d). -/
theorem sum_idx (p : Fin 1000000) (d : Fin 128) : idx_main_v31 (ix1 p) d = ix2 p d :=
  funext fun a => Fin.ext (by match a with | ⟨0, _⟩ => rfl | ⟨1, _⟩ => rfl)

/-- One entry of the reference's [1000000,128] matrix of lane terms. -/
theorem lanes_apply (x0 : (⟨S100000x128, .f32⟩ : BufTy).Contents (Elt Ideal)) (x1 : (⟨S500x128, .f32⟩ : BufTy).Contents (Elt Ideal))
    (x3 x4 x5 : (⟨S1000000, .i32⟩ : BufTy).Contents (Elt Ideal)) (i : S1000000x128.Idx) :
    val_main_v30 (F := Ideal) x0 x1 x3 x4 x5 i
      = lane (val_main_v6 (F := Ideal) x0 x3 i) (val_main_v24 (F := Ideal) x1 x5 i) (val_main_v15 (F := Ideal) x0 x4 i) := by
  rw [val_main_v30_apply, val_main_v29_apply, val_main_v28_apply, val_main_v27_apply, val_main_v8_apply, val_main_v26_apply,
    val_main_v17_apply, val_main_v7_apply, val_main_v16_apply, val_main_v25_apply, val_main_cst_apply, val_main_cst_3_apply,
    val_main_cst_6_apply]
  rfl

/-- THE REFERENCE AT AN EDGE: entry `p` of the reference's result is the edge score of row `p` of the gathered
    head, tail and relation matrices, with the modulus array's one entry. -/
theorem ref_apply (x0 : (⟨S100000x128, .f32⟩ : BufTy).Contents (Elt Ideal)) (x1 : (⟨S500x128, .f32⟩ : BufTy).Contents (Elt Ideal))
    (x2 : (⟨S1x1, .f32⟩ : BufTy).Contents (Elt Ideal)) (x3 x4 x5 : (⟨S1000000, .i32⟩ : BufTy).Contents (Elt Ideal)) (p : Fin 1000000) :
    val_main_v36 (F := Ideal) x0 x1 x2 x3 x4 x5 (ix1 p)
      = rowScore (fun d => val_main_v6 (F := Ideal) x0 x3 (ix2 p d)) (fun d => val_main_v15 (F := Ideal) x0 x4 (ix2 p d))
          (fun d => val_main_v24 (F := Ideal) x1 x5 (ix2 p d)) (x2 (ix2 0 0)) := by
  rw [val_main_v36_apply, val_main_v33_apply, val_main_v32_apply, val_main_cst_8_apply, val_main_v31_apply,
    val_main_cst_7_apply, val_main_v35_apply, modulus_read]
  unfold rowScore
  refine congrArg₂ (· * ·) (congrArg (margin - ·) ?_) rfl
  refine (congrArg (· + _) Ideal.ofBits_zero_f32).trans ((zero_add _).trans ?_)
  refine Finset.sum_congr rfl fun d _ => ?_
  rw [sum_idx p d]
  exact lanes_apply x0 x1 x3 x4 x5 (ix2 p d)

end Cert.ReferenceIdeal.RefScore

end
-- ==== Proof.SameScores.lean ====
/-
  The two programs compute one function.

  Both programs gather with the same operation applied to the same normalised index column of the same
  table, so the reference's three gather stages are, term for term, the kernel's three gathered matrices.
  With that, the reference's result read at edge p and the kernel's are the edge score of the same three
  rows and the same modulus entry.
-/
import proofs.«133718_j76124000354701_1_alg».proof.Proof.KernelResult
import proofs.«133718_j76124000354701_1_alg».proof.Proof.RefScore

noncomputable section

namespace Cert.Proof.SameScores

open Idealize.ShloMosaic Idealize.ShloMosaic.TcCoe Idealize.SL.Sem Idealize.ShloMosaic.ValueIdx Cert.Score

variable (m : (ℓ : Loc Cert.KernelIdeal.nD Cert.KernelIdeal.τ Cert.KernelIdeal.sig) → Buf (Elt Ideal) ℓ)

/-- The reference's gathered head rows, of the kernel's arguments, are the kernel's. -/
theorem head_rows (c : Dev Cert.KernelIdeal.nD) :
    Cert.ReferenceIdeal.Read.val_main_v6 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
      = Cert.KernelIdeal.Scores.gatheredHead m c := rfl

/-- The same for the tail rows. -/
theorem tail_rows (c : Dev Cert.KernelIdeal.nD) :
    Cert.ReferenceIdeal.Read.val_main_v15 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg4))
      = Cert.KernelIdeal.Scores.gatheredTail m c := rfl

/-- The same for the relation rows. -/
theorem rel_rows (c : Dev Cert.KernelIdeal.nD) :
    Cert.ReferenceIdeal.Read.val_main_v24 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg5))
      = Cert.KernelIdeal.Scores.gatheredRel m c := rfl

/-- ONE FUNCTION: the reference's result stage, of the kernel's arguments, is the kernel's result. -/
theorem ref_eq_kernel (c : Dev Cert.KernelIdeal.nD) :
    Cert.ReferenceIdeal.Read.val_main_v36 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.Scores.edgeScores m c := by
  funext i
  obtain ⟨p, rfl⟩ : ∃ p : Fin 1000000, i = ix1 p := ⟨i 0, eq_ix1 i⟩
  refine (Cert.ReferenceIdeal.RefScore.ref_apply _ _ _ _ _ _ p).trans ?_
  rw [head_rows m c, tail_rows m c, rel_rows m c]
  rfl

end Cert.Proof.SameScores

end
-- ==== Proof.lean ====
/-
  The certificate: a Pallas kernel computing the pRotatE edge score of a million edges, against its jnp
  reference, equal over the extended reals.

  Both programs gather, for every edge, the head and tail rows of the node table and the relation row of the
  relation table (128 lanes each), and score the edge as

      (12 - sum over lanes of |sin (head * s + relation * s - tail * s)|) * modulus,

  with s the one f32 word of pi / 0.109375 that both carry. The reference does this on whole [1000000,128]
  matrices. The kernel pads the three gathered matrices to 245 blocks of 4096 rows, scores one block per
  grid point, and keeps the first 1000000 scores: the padding rows only feed scores that are dropped.
  Operation by operation, in the same order, the two sides agree on every lane of every edge, so no law that
  needs finite values is used and the precondition is never opened.

  The frames of the kernel at both instances are the generated ones; the reference's frame is its generated
  run with the result dropped; the idealization rewrote nothing. Written by hand: the score as a function
  (Score), the kernel body's store at a row (KernelBlock), the output array after the region (KernelArray),
  the pads and the closing slice and the kernel's run (KernelResult), the reference at an edge (RefScore),
  and that the two are one function (SameScores).
-/
import proofs.«133718_j76124000354701_1_alg».proof.Defs
import proofs.«133718_j76124000354701_1_alg».proof.Proof.Gen.Kernel
import proofs.«133718_j76124000354701_1_alg».proof.Proof.Gen.Kernel.Skeleton
import proofs.«133718_j76124000354701_1_alg».proof.Proof.Gen.Kernel.Launch
import proofs.«133718_j76124000354701_1_alg».proof.Proof.Gen.Kernel.Points
import proofs.«133718_j76124000354701_1_alg».proof.Proof.Gen.Kernel.Frame
import proofs.«133718_j76124000354701_1_alg».proof.Proof.Gen.KernelIdeal
import proofs.«133718_j76124000354701_1_alg».proof.Proof.Gen.KernelIdeal.Skeleton
import proofs.«133718_j76124000354701_1_alg».proof.Proof.Gen.KernelIdeal.Launch
import proofs.«133718_j76124000354701_1_alg».proof.Proof.Gen.KernelIdeal.Points
import proofs.«133718_j76124000354701_1_alg».proof.Proof.Gen.KernelIdeal.Frame
import proofs.«133718_j76124000354701_1_alg».proof.Proof.Gen.ReferenceIdeal
import proofs.«133718_j76124000354701_1_alg».proof.Proof.Gen.Pre_finite_inputs
import proofs.«133718_j76124000354701_1_alg».proof.Proof.Gen.ReferenceIdeal.Run
import proofs.«133718_j76124000354701_1_alg».proof.Proof.Gen.ReferenceIdeal.Read
import proofs.«133718_j76124000354701_1_alg».proof.Proof.SameScores
import Idealize.ShloMosaic.Adequacy
import Idealize.ShloMosaic.Init

noncomputable section

namespace Cert.Proof

open Idealize.ShloMosaic Idealize.SL.Sem

/-- The kernel as printed runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the score of every edge. -/
theorem algebraic : Cert.algebraic_KernelIdeal_ReferenceIdeal := by
  intro m ρ m' ρ' _ hagree
  refine ⟨fun c => Cert.KernelIdeal.Scores.edgeScores m c, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v36_eq, a0, a1, a2, a3, a4, a5]
  exact SameScores.ref_eq_kernel m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
